-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x30000 : Shape := ⟨2, ![1024, 30000]⟩
abbrev S600000 : Shape := ⟨1, ![600000]⟩
abbrev S2048 : Shape := ⟨1, ![2048]⟩
abbrev S600000x2 : Shape := ⟨2, ![600000, 2]⟩
abbrev S_ : Shape := ⟨0, ![]⟩
abbrev S600000x1 : Shape := ⟨2, ![600000, 1]⟩

class Facts : Prop where
  bcast_S_S1024x30000 : S_.BroadcastsInDim S1024x30000 (![] : Fin 0 → Fin S1024x30000.rank)
  reducesTo_S1024x30000_S_d0_1 : S1024x30000.ReducesTo [0, 1] S_
  h_S_ : 0 < S_.numel
  bcast_S_S600000 : S_.BroadcastsInDim S600000 (![] : Fin 0 → Fin S600000.rank)
  reducesTo_S600000_S_d0 : S600000.ReducesTo [0] S_
  bcast_S_S2048 : S_.BroadcastsInDim S2048 (![] : Fin 0 → Fin S2048.rank)
  reducesTo_S2048_S_d0 : S2048.ReducesTo [0] S_
  slices_S600000x2_S600000x1_0_0 : S600000x2.Slices ![0, 0] S600000x1
  shapeCasts_S600000x1_S600000 : S600000x1.ShapeCasts S600000
  slices_S600000x2_S600000x1_0_1 : S600000x2.Slices ![0, 1] S600000x1

variable [Facts]

def fn_part2 {F : FTy → Type} [FloatOps F] (main_v31 : IVec S_ 1) (main_v33 : IVec S600000 32) (main_v34 : IVec S600000 32) : IVec S_ 1 :=
  let main_v35 : IVec S600000 1 := cmpi .slt main_v33 main_v34
  let main_c_11 : IVec S_ 1 := constantI S_ 1 1#1
  let main_v36 : IVec S_ 1 := (fun x v => Host.reduce IntOp.andi x v reducesTo_S600000_S_d0 h_S_) main_v35 main_c_11
  let main_v37 : IVec S_ 1 := andi main_v31 main_v36
  main_v37

def fn_part1 {F : FTy → Type} [FloatOps F] (main_arg3 : IVec S600000x2 32) (main_v13 : IVec S_ 1) (main_v15 : IVec S600000 32) (main_v16 : IVec S600000 32) : IVec S_ 1 :=
  let main_v17 : IVec S600000 1 := cmpi .sge main_v15 main_v16
  let main_c_5 : IVec S_ 1 := constantI S_ 1 1#1
  let main_v18 : IVec S_ 1 := (fun x v => Host.reduce IntOp.andi x v reducesTo_S600000_S_d0 h_S_) main_v17 main_c_5
  let main_v19 : IVec S_ 1 := andi main_v13 main_v18
  let main_v20 : IVec S600000x1 32 := (extractStridedSlice S600000x1 ![0, 0] · slices_S600000x2_S600000x1_0_0) main_arg3
  let main_v21 : IVec S600000 32 := shapeCast S600000 main_v20 shapeCasts_S600000x1_S600000
  let main_c_6 : IVec S_ 32 := constantI S_ 32 30000#32
  let main_v22 : IVec S600000 32 := broadcastInDim S600000 ![] bcast_S_S600000 main_c_6
  let main_v23 : IVec S600000 1 := cmpi .slt main_v21 main_v22
  let main_c_7 : IVec S_ 1 := constantI S_ 1 1#1
  let main_v24 : IVec S_ 1 := (fun x v => Host.reduce IntOp.andi x v reducesTo_S600000_S_d0 h_S_) main_v23 main_c_7
  let main_v25 : IVec S_ 1 := andi main_v19 main_v24
  let main_v26 : IVec S600000x1 32 := (extractStridedSlice S600000x1 ![0, 1] · slices_S600000x2_S600000x1_0_1) main_arg3
  let main_v27 : IVec S600000 32 := shapeCast S600000 main_v26 shapeCasts_S600000x1_S600000
  let main_c_8 : IVec S_ 32 := constantI S_ 32 0#32
  let main_v28 : IVec S600000 32 := broadcastInDim S600000 ![] bcast_S_S600000 main_c_8
  let main_v29 : IVec S600000 1 := cmpi .sge main_v27 main_v28
  let main_c_9 : IVec S_ 1 := constantI S_ 1 1#1
  let main_v30 : IVec S_ 1 := (fun x v => Host.reduce IntOp.andi x v reducesTo_S600000_S_d0 h_S_) main_v29 main_c_9
  let main_v31 : IVec S_ 1 := andi main_v25 main_v30
  let main_v32 : IVec S600000x1 32 := (extractStridedSlice S600000x1 ![0, 1] · slices_S600000x2_S600000x1_0_1) main_arg3
  let main_v33 : IVec S600000 32 := shapeCast S600000 main_v32 shapeCasts_S600000x1_S600000
  let main_c_10 : IVec S_ 32 := constantI S_ 32 2048#32
  let main_v34 : IVec S600000 32 := broadcastInDim S600000 ![] bcast_S_S600000 main_c_10
  fn_part2 (F := F) main_v31 main_v33 main_v34

def fn {F : FTy → Type} [FloatOps F] (main_arg0 : FVec F S1024x30000 .f32) (main_arg1 : FVec F S600000 .f32) (main_arg2 : FVec F S2048 .f32) (main_arg3 : IVec S600000x2 32) : IVec S_ 1 :=
  let main_v0 : FVec F S1024x30000 .f32 := Host.absf main_arg0
  let main_cst : FVec F S_ .f32 := constant S_ .f32 0x7F800000#32
  let main_v1 : FVec F S1024x30000 .f32 := broadcastInDim S1024x30000 ![] bcast_S_S1024x30000 main_cst
  let main_v2 : IVec S1024x30000 1 := cmpf .olt main_v0 main_v1
  let main_c : IVec S_ 1 := constantI S_ 1 1#1
  let main_v3 : IVec S_ 1 := (fun x v => Host.reduce IntOp.andi x v reducesTo_S1024x30000_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : IVec S600000x1 32 := (extractStridedSlice S600000x1 ![0, 0] · slices_S600000x2_S600000x1_0_0) main_arg3
  let main_v15 : IVec S600000 32 := shapeCast S600000 main_v14 shapeCasts_S600000x1_S600000
  let main_c_4 : IVec S_ 32 := constantI S_ 32 0#32
  let main_v16 : IVec S600000 32 := broadcastInDim S600000 ![] bcast_S_S600000 main_c_4
  fn_part1 (F := F) main_arg3 main_v13 main_v15 main_v16
-- ==== Kernel.lean ====
abbrev S1024x30000 : Shape := ⟨2, ![1024, 30000]⟩
abbrev S600000 : Shape := ⟨1, ![600000]⟩
abbrev S2048 : Shape := ⟨1, ![2048]⟩
abbrev S600000x2 : Shape := ⟨2, ![600000, 2]⟩
abbrev S600000x1 : Shape := ⟨2, ![600000, 1]⟩
abbrev S_ : Shape := ⟨0, ![]⟩
abbrev S62914560 : Shape := ⟨1, ![62914560]⟩
abbrev S30720x2048 : Shape := ⟨2, ![30720, 2048]⟩
abbrev S1024x30720 : Shape := ⟨2, ![1024, 30720]⟩
abbrev S1x2048 : Shape := ⟨2, ![1, 2048]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 29
  | .vmem => 9
  | .smem => 0
  | _ => 0

abbrev bufTy : (tb : Table) → Fin (tcTables nBuf tb) → BufTy
  | .hbm, ⟨0, _⟩ => ⟨S1024x30000, .f32⟩
  | .hbm, ⟨1, _⟩ => ⟨S600000, .f32⟩
  | .hbm, ⟨2, _⟩ => ⟨S2048, .f32⟩
  | .hbm, ⟨3, _⟩ => ⟨S600000x2, .i32⟩
  | .hbm, ⟨4, _⟩ => ⟨S600000x1, .i32⟩
  | .hbm, ⟨5, _⟩ => ⟨S600000, .i32⟩
  | .hbm, ⟨6, _⟩ => ⟨S600000x1, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S_, .f32⟩
  | .hbm, ⟨13, _⟩ => ⟨S62914560, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S62914560, .f32⟩
  | .hbm, ⟨23, _⟩ => ⟨S30720x2048, .f32⟩
  | .hbm, ⟨24, _⟩ => ⟨S_, .i32⟩
  | .hbm, ⟨25, _⟩ => ⟨S_, .f32⟩
  | .hbm, ⟨26, _⟩ => ⟨S1024x30720, .f32⟩
  | .hbm, ⟨27, _⟩ => ⟨S1x2048, .f32⟩
  | .hbm, ⟨28, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 30], ![false, false]⟩

def k0_cond2 (i : grid0.Coords) : BitVec 1 :=
  let arg1 : BitVec 32 := BitVec.ofNat 32 (i 1).val
  let c29_i32 : BitVec 32 := 29#32
  let v13 : BitVec 1 := Scalar.cmpi .eq arg1 c29_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S_S62914560 : S_.BroadcastsInDim S62914560 (![] : Fin 0 → Fin S62914560.rank)
  bcast_S600000_S600000x1_0 : S600000.BroadcastsInDim S600000x1 (![0] : Fin 1 → Fin S600000x1.rank)
  shapeCasts_S62914560_S30720x2048 : S62914560.ShapeCasts S30720x2048
  pads_S1024x30000_S1024x30720_000_07200 : S1024x30000.Pads (![0, 0] : Fin 2 → Nat) ![0, 720] ![0, 0] S1024x30720
  h_S_ : 0 < S_.numel
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S62914560_S600000x1_S600000_n_0_0_1_wf : ScatterDims.WF S62914560 S600000x1 S600000 [] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x30720.size a
  hwx0_0 : ∀ i : grid0.Coords, EltTy.bits .f32 = 32 ∨ (Rect.block (s := S1024x30720) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S30720x2048.size a
  hwx0_1 : ∀ i : grid0.Coords, EltTy.bits .f32 = 32 ∨ (Rect.block (s := S30720x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x2048.size a
  hwx0_3 : ∀ i : grid0.Coords, EltTy.bits .f32 = 32 ∨ (Rect.block (s := S1024x2048) S1024x1024.size (cc0_transform_3 i) (hinb0_3 i)).WholeWords (EltTy.packing .f32)

variable [Facts₀]

def scatter_S62914560_S600000x1_S600000_n_0_0_1 : ScatterDims S62914560 S600000x1 S600000 where
  updateWindowDims := []
  insertedWindowDims := [0]
  scatterDimsToOperandDims := [0]
  indexVectorDim := 1
  wf := scatter_S62914560_S600000x1_S600000_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x30000 : Shape := ⟨2, ![1024, 30000]⟩
abbrev S600000 : Shape := ⟨1, ![600000]⟩
abbrev S2048 : Shape := ⟨1, ![2048]⟩
abbrev S600000x2 : Shape := ⟨2, ![600000, 2]⟩
abbrev S_ : Shape := ⟨0, ![]⟩
abbrev S30000x2048 : Shape := ⟨2, ![30000, 2048]⟩
abbrev S600000x1 : Shape := ⟨2, ![600000, 1]⟩
abbrev S1024x2048 : Shape := ⟨2, ![1024, 2048]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1024x30000, .f32⟩
  | .hbm, ⟨1, _⟩ => ⟨S600000, .f32⟩
  | .hbm, ⟨2, _⟩ => ⟨S2048, .f32⟩
  | .hbm, ⟨3, _⟩ => ⟨S600000x2, .i32⟩
  | .hbm, ⟨4, _⟩ => ⟨S_, .f32⟩
  | .hbm, ⟨5, _⟩ => ⟨S30000x2048, .f32⟩
  | .hbm, ⟨6, _⟩ => ⟨S600000x1, .i32⟩
  | .hbm, ⟨7, _⟩ => ⟨S600000, .i32⟩
  | .hbm, ⟨8, _⟩ => ⟨S600000x1, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x1, .i32⟩
  | .hbm, ⟨26, _⟩ => ⟨S600000x2, .i32⟩
  | .hbm, ⟨27, _⟩ => ⟨S30000x2048, .f32⟩
  | .hbm, ⟨28, _⟩ => ⟨S1024x2048, .f32⟩
  | .hbm, ⟨29, _⟩ => ⟨S1x2048, .f32⟩
  | .hbm, ⟨30, _⟩ => ⟨S1024x2048, .f32⟩
  | .hbm, ⟨31, _⟩ => ⟨S1024x2048, .f32⟩
  | .hbm, ⟨32, _⟩ => ⟨S1024x2048, .f32⟩
  | _, _ => ⟨S1024x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S30000x2048 : S_.BroadcastsInDim S30000x2048 (![] : Fin 0 → Fin S30000x2048.rank)
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  scatter_S30000x2048_S600000x2_S600000_n_01_01_1_wf : ScatterDims.WF S30000x2048 S600000x2 S600000 [] [0, 1] [0, 1] 1
  dot_S1024x30000_S30000x2048_S1024x2048_1_0_0_1_n_n_wf : DotDims.WF S1024x30000 S30000x2048 S1024x2048 [1] [0] [0] [1] [] []

variable [Facts₀]

def scatter_S30000x2048_S600000x2_S600000_n_01_01_1 : ScatterDims S30000x2048 S600000x2 S600000 where
  updateWindowDims := []
  insertedWindowDims := [0, 1]
  scatterDimsToOperandDims := [0, 1]
  indexVectorDim := 1
  wf := scatter_S30000x2048_S600000x2_S600000_n_01_01_1_wf
def dot_S1024x30000_S30000x2048_S1024x2048_1_0_0_1_n_n : DotDims S1024x30000 S30000x2048 S1024x2048 where
  lhsContracting := [1]
  rhsContracting := [0]
  lhsNonContracting := [0]
  rhsNonContracting := [1]
  lhsBatch := []
  rhsBatch := []
  wf := dot_S1024x30000_S30000x2048_S1024x2048_1_0_0_1_n_n_wf

class Facts : Prop extends Facts₀ where

variable [Facts]
-- ==== Proof.KernelBody.lean ====
/-
  WHAT THE KERNEL'S BODY LEAVES, point by point, and the result array it adds up to.

  The grid is 2 × 30: point `t` has column tile `t / 30` and reduction step `t % 30`. At step 0 the body zeroes its
  accumulator and adds the product of the point's `x` block `[1024, 1024]` and matrix block `[1024, 1024]`; at every
  later step it adds that point's product to what the step before left; at step 29 it also stores
  `tanh (accumulator + bias row)` into the output block, the only step whose output block is written back.
-/
import proofs.«405967_j21552145891656_3_alg».proof.Proof.Gen.KernelIdeal.Value
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.BodyValue

open Cert.KernelIdeal Cert.KernelIdeal.Gen Idealize.ShloMosaic Idealize.ShloMosaic.TcCoe Idealize.SL.Sem
open Idealize.ShloMosaic.Tactic
open Idealize.ShloMosaic.Pipeline (Dat)
open Idealize.ShloMosaic.ValueIdx

variable {F : FTy → Type} [FloatOps F]

/-! ## The pieces each case leaves, as the body's payloads -/

theorem hz : (![0, 0] : Fin S1024x1024.rank → Nat) = fun _ => 0 := by
  funext a; match a with | ⟨0, _⟩ => rfl | ⟨1, _⟩ => rfl

theorem hz1 : (![0, 0] : Fin S1x1024.rank → Nat) = fun _ => 0 := by
  funext a; match a with | ⟨0, _⟩ => rfl | ⟨1, _⟩ => rfl

/-- At a first step the accumulator ends at the zero block plus the product of the point's two blocks. -/
theorem scratchA (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) (x2 : Vec F S1x1024 .f32) :
    sout0_A_0 c i arg2 harg2 arg3 harg3 arg4 harg4 arg5 harg5 arg6 harg6 hc0 hc1 x0 x1 x2 = k0_pay2 (F := F) k0_pay1 x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x1024) hz]

/-- At a middle step the accumulator ends at what it held plus the product of the point's two blocks. -/
theorem scratchB (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    sout0_B_0 c i arg2 harg2 arg3 harg3 arg4 harg4 arg5 harg5 arg6 harg6 hc0 hc1 x0 x1 x2 xs0 = k0_pay2 (F := F) xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1024x1024) hz]
  simp only [View.readAt_eq_ld, harg6.read_unread, harg2.read_unread, harg3.read_unread, View.ld_unit_zero (S := S1024x1024) hz]

/-- At a last step the accumulator ends likewise … -/
theorem scratchC (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (x2 : Vec F S1x1024 .f32) (xs0 : Vec F S1024x1024 .f32) :
    sout0_C_0 c i arg2 harg2 arg3 harg3 arg4 harg4 arg5 harg5 arg6 harg6 hc0 hc1 x0 x1 x2 xs0 = k0_pay2 (F := F) xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1024x1024) hz]
  simp only [View.readAt_eq_ld, harg6.read_unread, harg2.read_unread, harg3.read_unread, View.ld_unit_zero (S := S1024x1024) hz]

/-- … and the output block is the epilogue of that accumulator and the bias row. -/
theorem outC (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (x2 : Vec F S1x1024 .f32) (xs0 : Vec F S1024x1024 .f32) :
    out0_C_3 c i arg2 harg2 arg3 harg3 arg4 harg4 arg5 harg5 arg6 harg6 hc0 hc1 x0 x1 x2 xs0 = k0_pay3 (F := F) (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1024x1024) hz]
  simp only [View.readCov_unit_zero (S := S1024x1024) _ hz, View.readAt_eq_ld, harg6.read_unread, harg2.read_unread,
    harg3.read_unread, harg4.read_unread, View.ld_unit_zero (S := S1024x1024) hz, View.ld_unit_zero (S := S1x1024) hz1]

/-! ## The payloads at an index, over the extended reals -/

section Payloads

open Idealize.ShloMosaic.ValueIdx

theorem lhs_blk_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_blk_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_blk_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_blk_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two `[1024, 1024]` blocks into a zero accumulator, at `(p, q)`: row `p` against column `q`. -/
theorem blockProduct_apply (x0 x1 : FVec Ideal S1024x1024 .f32) (p q : Fin 1024) :
    matmul (F := Ideal) dot_S1024x1024_S1024x1024_S1024x1024_1_0_0_1_n_n none x0 x1 (constant S1024x1024 .f32 0x00000000#32) (ix2 p q)
      = ∑ kk : Fin 1024, x0 (ix2 p kk) * x1 (ix2 kk q) := by
  refine (Ideal.matmul_constant_zero_apply dot_S1024x1024_S1024x1024_S1024x1024_1_0_0_1_n_n none x0 x1 (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_blk_0 _ _
    | ⟨1, _⟩ => exact (lhs_blk_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_blk_0 _ _).trans hk
    | ⟨1, _⟩ => exact rhs_blk_1 _ _)
  rw [el, er]

/-- The reset block is zero everywhere. -/
theorem pay1_apply (i : S1024x1024.Idx) : k0_pay1 (F := Ideal) i = (0 : EReal) := by
  unfold k0_pay1
  simp only [shapeCast_self]
  exact Ideal.ofBits_zero_f32

/-- One accumulation step at `(p, q)`: what the accumulator held there plus row `p` of the `x` block against
    column `q` of the matrix block. -/
theorem pay2_apply (acc x0 x1 : Vec Ideal S1024x1024 .f32) (p q : Fin 1024) :
    k0_pay2 (F := Ideal) acc x0 x1 (ix2 p q) = acc (ix2 p q) + ∑ kk : Fin 1024, x0 (ix2 p kk) * x1 (ix2 kk q) := by
  unfold k0_pay2
  simp only [shapeCast_self]
  exact congrArg (acc (ix2 p q) + ·) (blockProduct_apply x0 x1 p q)

/-- The epilogue at `(p, q)`: `tanh` of the accumulator there plus the bias row at `q`. -/
theorem pay3_apply (acc : Vec Ideal S1024x1024 .f32) (b : Vec Ideal S1x1024 .f32) (p q : Fin 1024) :
    k0_pay3 (F := Ideal) acc b (ix2 p q) = Ideal.tanh (acc (ix2 p q) + b (ix2 0 q)) := by
  unfold k0_pay3
  simp only [shapeCast_self]
  show Ideal.tanh (acc (ix2 p q) + broadcastTo S1024x1024 b broadcasts_S1x1024_S1024x1024 (ix2 p q)) = _
  refine congrArg (fun z => Ideal.tanh (acc (ix2 p q) + z)) ?_
  exact broadcastTo_apply b broadcasts_S1x1024_S1024x1024 (ix2 p q) (ix2 0 q) (fun a => by
    match a with
    | ⟨0, _⟩ => rfl
    | ⟨1, _⟩ => rfl)

end Payloads

/-! ## The blocks a point reads, as entries of the arrays the region finds -/

section Blocks

variable (m : (ℓ : Loc nD τ sig) → Buf (Elt Ideal) ℓ)

/-- The padded `x`, the matrix and the bias row as the region finds them. -/
abbrev xarr (c : Dev nD) : Vec Ideal S1024x30720 .f32 := V m c main_v16
abbrev karr (c : Dev nD) : Vec Ideal S30720x2048 .f32 := V m c main_v15
abbrev barr (c : Dev nD) : Vec Ideal S1x2048 .f32 := V m c main_v17

/-- The three blocks point `t` reads. -/
abbrev xblk (c : Dev nD) (t : Fin cfg0.N) : Vec Ideal S1024x1024 .f32 := iblk m c 0 t
abbrev kblk (c : Dev nD) (t : Fin cfg0.N) : Vec Ideal S1024x1024 .f32 := iblk m c 1 t
abbrev bblk (c : Dev nD) (t : Fin cfg0.N) : Vec Ideal S1x1024 .f32 := iblk m c 2 t

/-- The block indices of the four windows at point `t`: the reduction step `t % 30` moves `x` along its columns and the
    matrix along its rows; the column tile `t / 30` moves the matrix, the bias row and the output along their columns. -/
theorem idx_facts : ∀ t : Fin cfg0.N,
    win0_0.index t (0 : Fin 2) = 0 ∧ win0_0.index t (1 : Fin 2) = t.val % 30
    ∧ win0_1.index t (0 : Fin 2) = t.val % 30 ∧ win0_1.index t (1 : Fin 2) = t.val / 30
    ∧ win0_2.index t (0 : Fin 2) = 0 ∧ win0_2.index t (1 : Fin 2) = t.val / 30
    ∧ win0_3.index t (0 : Fin 2) = 0 ∧ win0_3.index t (1 : Fin 2) = t.val / 30 :=
  (by decide +kernel : ∀ t : Fin grid0.N, _)

/-- The `x` block of point `t` at `(p, kk)` is the padded `x` at `(p, 1024 · (t % 30) + kk)`. -/
theorem xblk_apply (c : Dev nD) (t : Fin cfg0.N) (p kk : Fin 1024) (i' : S1024x30720.Idx)
    (h0 : (i' 0).val = p.val) (h1 : (i' 1).val = (t.val % 30) * 1024 + kk.val) :
    xblk m c t (ix2 p kk) = xarr m c i' := by
  obtain ⟨e0, e1, -⟩ := idx_facts t
  show V m c main_v16 (((cfg0.win 0).blk t).view.emb (ix2 p kk)) = V m c main_v16 i'
  refine congrArg (V m c main_v16) (funext fun a => Fin.ext ?_)
  match a with
  | ⟨0, _⟩ => show win0_0.index t (0 : Fin 2) * 1024 + 1 * p.val = (i' 0).val; rw [e0, h0]; omega
  | ⟨1, _⟩ => show win0_0.index t (1 : Fin 2) * 1024 + 1 * kk.val = (i' 1).val; rw [e1, h1]; omega

/-- The matrix block of point `t` at `(kk, q)` is the matrix at `(1024 · (t % 30) + kk, 1024 · (t / 30) + q)`. -/
theorem kblk_apply (c : Dev nD) (t : Fin cfg0.N) (kk q : Fin 1024) (i' : S30720x2048.Idx)
    (h0 : (i' 0).val = (t.val % 30) * 1024 + kk.val) (h1 : (i' 1).val = (t.val / 30) * 1024 + q.val) :
    kblk m c t (ix2 kk q) = karr m c i' := by
  obtain ⟨-, -, e0, e1, -⟩ := idx_facts t
  show V m c main_v15 (((cfg0.win 1).blk t).view.emb (ix2 kk q)) = V m c main_v15 i'
  refine congrArg (V m c main_v15) (funext fun a => Fin.ext ?_)
  match a with
  | ⟨0, _⟩ => show win0_1.index t (0 : Fin 2) * 1024 + 1 * kk.val = (i' 0).val; rw [e0, h0]; omega
  | ⟨1, _⟩ => show win0_1.index t (1 : Fin 2) * 1024 + 1 * q.val = (i' 1).val; rw [e1, h1]; omega

/-- The bias block of point `t` at `(0, q)` is the bias row at `(0, 1024 · (t / 30) + q)`. -/
theorem bblk_apply (c : Dev nD) (t : Fin cfg0.N) (q : Fin 1024) (i' : S1x2048.Idx)
    (h1 : (i' 1).val = (t.val / 30) * 1024 + q.val) :
    bblk m c t (ix2 0 q) = barr m c i' := by
  obtain ⟨-, -, -, -, e0, e1, -⟩ := idx_facts t
  show V m c main_v17 (((cfg0.win 2).blk t).view.emb (ix2 0 q)) = V m c main_v17 i'
  refine congrArg (V m c main_v17) (funext fun a => Fin.ext ?_)
  match a with
  | ⟨0, _⟩ =>
    show win0_2.index t (0 : Fin 2) * 1 + 1 * 0 = (i' 0).val
    have : (i' 0).val < 1 := (i' 0).isLt
    rw [e0]; omega
  | ⟨1, _⟩ => show win0_2.index t (1 : Fin 2) * 1024 + 1 * q.val = (i' 1).val; rw [e1, h1]; omega

end Blocks

end Cert.KernelIdeal.BodyValue

end
-- ==== Proof.KernelFold.lean ====
/-
  THE ACCUMULATOR AS A SUM OVER THE REDUCTION STEPS, and the result array.

  Over the 30 points of one column tile the accumulator is reset once and then only added to, so after step `k` it holds
  zero plus the sum over the steps `0 … k` of each step's block product; at step 29 that is the whole product of a row of
  the padded `x` with a column of the matrix, cut into 30 runs of 1024 terms. The output block written back at step 29 is
  `tanh` of that sum plus the bias, and the two column tiles' blocks fill the result array.
-/
import proofs.«405967_j21552145891656_3_alg».proof.Proof.KernelBody

set_option maxRecDepth 16384

noncomputable section

open scoped BigOperators

namespace Cert.KernelIdeal.BodyValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem N_eq : cfg0.N = 60 := N_0

/-! ## One step's addend -/

/-- What point `n` adds to the accumulator at `i`: row `i 0` of its `x` block against column `i 1` of its matrix
    block (zero past the grid, where no point is). -/
def addend (c : Dev nD) (n : ℕ) (i : S1024x1024.Idx) : EReal :=
  if h : n < cfg0.N then ∑ kk : Fin 1024, xblk m c ⟨n, h⟩ (ix2 (i 0) kk) * kblk m c ⟨n, h⟩ (ix2 kk (i 1)) else 0

theorem addend_of_lt (c : Dev nD) (n : ℕ) (h : n < cfg0.N) (p q : Fin 1024) :
    addend m c n (ix2 p q) = ∑ kk : Fin 1024, xblk m c ⟨n, h⟩ (ix2 p kk) * kblk m c ⟨n, h⟩ (ix2 kk q) := by
  unfold addend; rw [dif_pos h]

/-- A first step leaves zero plus its addend, whatever the accumulator held. -/
theorem step_first (c : Dev nD) (n : ℕ) (hb : n < cfg0.N) (h0 : n % 30 = 0) (acc : Vec Ideal S1024x1024 .f32)
    (i : S1024x1024.Idx) : Value.scAt0_0 m c n hb acc i = (0 : EReal) + addend m c n i := by
  obtain ⟨p, q, rfl⟩ : ∃ (p q : Fin 1024), i = ix2 p q := ⟨i 0, i 1, eq_ix2 i⟩
  have h1 : ¬ n % 30 = 29 := by omega
  unfold Value.scAt0_0
  rw [dif_pos h0, dif_neg h1]
  refine (congrFun (scratchA (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
  rw [addend_of_lt m c n hb]
  refine (pay2_apply _ _ _ p q).trans ?_
  rw [pay1_apply]

/-- A later step leaves what the accumulator held plus its addend. -/
theorem step_later (c : Dev nD) (n : ℕ) (hb : n < cfg0.N) (h0 : ¬ n % 30 = 0) (acc : Vec Ideal S1024x1024 .f32)
    (i : S1024x1024.Idx) : Value.scAt0_0 m c n hb acc i = acc i + addend m c n i := by
  obtain ⟨p, q, rfl⟩ : ∃ (p q : Fin 1024), i = ix2 p q := ⟨i 0, i 1, eq_ix2 i⟩
  unfold Value.scAt0_0
  rw [dif_neg h0]
  by_cases h1 : n % 30 = 29
  · rw [dif_pos h1]
    refine (congrFun (scratchC (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
    rw [addend_of_lt m c n hb]
    exact pay2_apply _ _ _ p q
  · rw [dif_neg h1]
    refine (congrFun (scratchB (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
    rw [addend_of_lt m c n hb]
    exact pay2_apply _ _ _ p q

/-- THE ACCUMULATOR after point `t`, at `i`: zero plus the addends of the steps `0 … t % 30` of `t`'s column tile. -/
theorem acc_apply (c : Dev nD) (t : Fin cfg0.N) (i : S1024x1024.Idx) :
    (outsAt0 m c t.val t.isLt).2 i
      = (0 : EReal) + ∑ s ∈ Finset.range (t.val % 30 + 1), addend m c (30 * (t.val / 30) + s) i := by
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (30 * (t.val / 30)) 29
    (fun h i => step_first m c _ h (by omega) _ i)
    (fun n h acc i hlt hle => step_later m c n h (by omega) acc i)
    (t.val % 30) (by omega) _ i

/-! ## The result array -/

/-- Position `kk` of reduction step `s` among the 30720 padded columns. -/
def stepIdx (s : Fin 30) (kk : Fin 1024) : Fin 30720 :=
  ⟨s.val * 1024 + kk.val, by have := s.isLt; have := kk.isLt; omega⟩

/-- Row `p` of the padded `x` against column `n` of the matrix, summed step by step. -/
def stepSum (X : S1024x30720.Idx → EReal) (K : S30720x2048.Idx → EReal) (p : Fin 1024) (n : Fin 2048) : EReal :=
  ∑ s : Fin 30, ∑ kk : Fin 1024, X (ix2 p (stepIdx s kk)) * K (ix2 (stepIdx s kk) n)

/-- What the kernel's result array holds, as a function of the three arrays its region reads. -/
def kernelResult (X : S1024x30720.Idx → EReal) (K : S30720x2048.Idx → EReal) (B : S1x2048.Idx → EReal) :
    S1024x2048.Idx → EReal := fun i =>
  Ideal.tanh (((0 : EReal) + stepSum X K (i 0) (i 1)) + B (ix2 0 (i 1)))

/-- At a last step the output block at `(p, q)` is `tanh` of the accumulator after that step plus the bias block. -/
theorem outBlock_apply (c : Dev nD) (t : Fin cfg0.N) (h0 : ¬t.val % 30 = 0) (h1 : t.val % 30 = 29) (p q : Fin 1024) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 (ix2 p q)
      = Ideal.tanh ((outsAt0 m c t.val t.isLt).2 (ix2 p q) + bblk m c t (ix2 0 q)) := by
  refine (congrFun (outC (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (pay3_apply _ _ p q).trans ?_
  have e : (outsAt0 m c t.val t.isLt).2 = k0_pay2 (F := Ideal) (outsAt0 m c (t.val - 1) (Nat.lt_of_le_of_lt (Nat.sub_le _ _) t.isLt)).2 (iblk m c 0 t) (iblk m c 1 t) := by
    rw [outsAt0_C m c t h0 h1]
    dsimp only
    exact scratchC (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  rw [e]

/-- WHAT A LAST STEP WRITES BACK is its block of `kernelResult` of the arrays the region finds. -/
theorem flushed_eq (c : Dev nD) (t : Fin cfg0.N) (h1 : t.val % 30 = 29) :
    (dats m 0 c).flushed 3 t
      = ((cfg0.win 3).blk t).view.read (Elt Ideal) (kernelResult (xarr m c) (karr m c) (barr m c)) := by
  have h0 : ¬ t.val % 30 = 0 := by omega
  have hN : cfg0.N = 60 := N_0
  have ht := t.isLt
  obtain ⟨-, -, -, -, -, -, e6, e7⟩ := idx_facts t
  rw [Value.flushed3_C m c t h0 h1]
  funext j
  obtain ⟨p, q, rfl⟩ : ∃ (p q : Fin 1024), j = ix2 p q := ⟨j 0, j 1, eq_ix2 j⟩
  refine (outBlock_apply m c t h0 h1 p q).trans ?_
  show _ = kernelResult (xarr m c) (karr m c) (barr m c) (((cfg0.win 3).blk t).view.emb (ix2 p q))
  have hi0 : ((((cfg0.win 3).blk t).view.emb (ix2 p q)) 0).val = p.val := by
    show win0_3.index t (0 : Fin 2) * 1024 + 1 * p.val = p.val
    rw [e6]; omega
  have hi1 : ((((cfg0.win 3).blk t).view.emb (ix2 p q)) 1).val = (t.val / 30) * 1024 + q.val := by
    show win0_3.index t (1 : Fin 2) * 1024 + 1 * q.val = (t.val / 30) * 1024 + q.val
    rw [e7]; omega
  generalize ((cfg0.win 3).blk t).view.emb (ix2 p q) = i at hi0 hi1
  unfold kernelResult
  rw [acc_apply m c t (ix2 p q), h1, bblk_apply m c t q (ix2 0 (i 1)) hi1]
  refine congrArg (fun z => Ideal.tanh (((0 : EReal) + z) + barr m c (ix2 0 (i 1)))) ?_
  rw [Finset.sum_range]
  unfold stepSum
  refine Finset.sum_congr rfl fun s _ => ?_
  have hs := s.isLt
  have hn : 30 * (t.val / 30) + s.val < cfg0.N := by omega
  rw [addend_of_lt m c _ hn]
  refine Finset.sum_congr rfl fun kk _ => ?_
  rw [xblk_apply m c ⟨_, hn⟩ p kk (ix2 (i 0) (stepIdx s kk)) hi0 (by show s.val * 1024 + kk.val = (30 * (t.val / 30) + s.val) % 30 * 1024 + kk.val; omega),
    kblk_apply m c ⟨_, hn⟩ kk q (ix2 (stepIdx s kk) (i 1)) (by show s.val * 1024 + kk.val = (30 * (t.val / 30) + s.val) % 30 * 1024 + kk.val; omega)
      (by show (i 1).val = (30 * (t.val / 30) + s.val) / 30 * 1024 + q.val; rw [hi1]; omega)]

/-- An index of the result is in point `t`'s output block iff each coordinate is in the block's range on its axis. -/
theorem mem_outBlock (t : Fin cfg0.N) (i : S1024x2048.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v18).slice (win0_3.rect t)).set ↔ _
  rw [View.set_slice_whole, Rect.mem_set_unit]
  exact Iff.rfl

/-- Every index of the result is in the output block of the last step of its column tile. -/
theorem covered (i : S1024x2048.Idx) :
    ∃ t : Fin cfg0.N, (cfg0.win 3).flush t = true ∧ i ∈ ((cfg0.win 3).blk t).view.set := by
  have hi0 : (i 0).val < 1024 := (i 0).isLt
  have hi1 : (i 1).val < 2048 := (i 1).isLt
  have hN : cfg0.N = 60 := N_0
  have hlt : 30 * ((i 1).val / 1024) + 29 < cfg0.N := by omega
  obtain ⟨-, -, -, -, -, -, e6, e7⟩ := idx_facts ⟨30 * ((i 1).val / 1024) + 29, hlt⟩
  refine ⟨⟨30 * ((i 1).val / 1024) + 29, hlt⟩, (flush0_3 _).mpr (by show (30 * ((i 1).val / 1024) + 29) % 30 = 29; omega), ?_⟩
  rw [mem_outBlock]
  intro a
  match a with
  | ⟨0, _⟩ =>
    show win0_3.index ⟨30 * ((i 1).val / 1024) + 29, hlt⟩ (0 : Fin 2) * 1024 ≤ (i 0).val ∧ (i 0).val < win0_3.index ⟨30 * ((i 1).val / 1024) + 29, hlt⟩ (0 : Fin 2) * 1024 + 1024
    rw [e6]; omega
  | ⟨1, _⟩ =>
    show win0_3.index ⟨30 * ((i 1).val / 1024) + 29, hlt⟩ (1 : Fin 2) * 1024 ≤ (i 1).val ∧ (i 1).val < win0_3.index ⟨30 * ((i 1).val / 1024) + 29, hlt⟩ (1 : Fin 2) * 1024 + 1024
    rw [e7]
    show (30 * ((i 1).val / 1024) + 29) / 30 * 1024 ≤ (i 1).val ∧ (i 1).val < (30 * ((i 1).val / 1024) + 29) / 30 * 1024 + 1024
    omega

/-- THE RESULT ARRAY after the run is `kernelResult` of the arrays the region finds. -/
theorem final (c : Dev nD) :
    (dats m 0 c).arrAt 3 cfg0.N = kernelResult (xarr m c) (karr m c) (barr m c) :=
  (dats m 0 c).arrAt_eq_of_cover 3 _ (fun t hf => flushed_eq m c t ((flush0_3 t).mp hf)) covered

end Cert.KernelIdeal.BodyValue

end
-- ==== Proof.Spec.lean ====
/-
  WHAT BOTH PROGRAMS COMPUTE, as one function of the four argument arrays.

  The inputs are a dense matrix `x : [1024, 30000]`, a list of 600000 values `kv` with an index pair
  `(ind[n, 0], ind[n, 1])` each, and a bias `[2048]`. The pairs name entries of a `[30000, 2048]` matrix `K`
  that is zero except that every value is added at its pair: `K[k, j]` is the sum of the values whose pair is
  `(k, j)` (`dense`). The result is `tanh (x · K + bias)`, entry by entry (`G`).

  The index pairs are words read signed; `InRange` says every pair names an entry of `K`.
-/
import Idealize.ShloMosaic.PureOps.Ideal
import Idealize.ShloMosaic.Lib.ValueIdx

noncomputable section

open scoped BigOperators

namespace Cert.SparseDense

open Idealize.ShloMosaic Idealize.ShloMosaic.ValueIdx

/-- Every index pair names an entry of the `[30000, 2048]` matrix: rows in `[0, 30000)`, columns in `[0, 2048)`,
    the words read signed. -/
def InRange (ind : IVec (⟨2, ![600000, 2]⟩ : Shape) 32) : Prop :=
  ∀ n : Fin 600000,
    (0 ≤ (ind (ix2 n 0)).toInt ∧ (ind (ix2 n 0)).toInt < 30000) ∧
    (0 ≤ (ind (ix2 n 1)).toInt ∧ (ind (ix2 n 1)).toInt < 2048)

/-- Entry `(k, j)` of the matrix the pairs and values describe: the sum of the values whose pair is `(k, j)`. -/
def dense (ind : IVec (⟨2, ![600000, 2]⟩ : Shape) 32) (kv : (⟨1, ![600000]⟩ : Shape).Idx → EReal) (k j : ℕ) : EReal :=
  ∑ n ∈ Finset.univ.filter (fun n : Fin 600000 =>
      (ind (ix2 n 0)).toInt = (k : ℤ) ∧ (ind (ix2 n 1)).toInt = (j : ℤ)), kv (ix1 n)

/-- The result: `tanh` of row `i 0` of `x` against column `i 1` of the matrix, plus the bias at `i 1`. -/
def G (x : (⟨2, ![1024, 30000]⟩ : Shape).Idx → EReal) (kv : (⟨1, ![600000]⟩ : Shape).Idx → EReal)
    (bias : (⟨1, ![2048]⟩ : Shape).Idx → EReal) (ind : IVec (⟨2, ![600000, 2]⟩ : Shape) 32) :
    (⟨2, ![1024, 2048]⟩ : Shape).Idx → EReal := fun i =>
  Ideal.tanh ((∑ k : Fin 30000, x (ix2 (i 0) k) * dense ind kv k.val (i 1).val) + bias (ix1 (i 1)))

end Cert.SparseDense

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«405967_j21552145891656_3_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«405967_j21552145891656_3_alg».proof.Proof.LibGatherScatter
import proofs.«405967_j21552145891656_3_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.KernelHost.lean ====
/-
  THE ARRAYS THE KERNEL'S REGION FINDS, read at an index.

  Before the region the program pads `x` with 720 zero columns, builds the matrix from the index pairs and values by
  ONE scatter into a flat vector of length 30720 · 2048 at the flat index `row · 2048 + column` (wrapped when negative),
  reshaped to `[30720, 2048]`, and lays the bias out as a row.
-/
import proofs.«405967_j21552145891656_3_alg».proof.Proof.Gen.KernelIdeal.Frame
import proofs.«405967_j21552145891656_3_alg».proof.Proof.Spec
import proofs.«405967_j21552145891656_3_alg».proof.Proof.LibGatherScatter
import proofs.«405967_j21552145891656_3_alg».proof.Proof.LibPairIndex
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Cert.KernelIdeal Cert.KernelIdeal.Gen Idealize.ShloMosaic Idealize.ShloMosaic.TcCoe Idealize.SL.Sem
open Idealize.ShloMosaic.ValueIdx Cert.SparseDense

variable (m : (ℓ : Loc nD τ sig) → Buf (Elt Ideal) ℓ)

/-- The padded `x` at `(p, k)`: `x` itself on the first 30000 columns, zero on the 720 added ones. -/
theorem xpad_apply (c : Dev nD) (p : Fin 1024) (k : Fin 30720) :
    (V m c main_v16 : S1024x30720.Idx → EReal) (ix2 p k)
      = (if h : k.val < 30000 then (m ((c : Thread nD τ).loc main_arg0) : S1024x30000.Idx → EReal) (ix2 p ⟨k.val, h⟩)
          else 0 : EReal) := by
  -- the array is `x` padded with 720 columns on the right, the padding value the integer zero converted
  have e : (V m c main_v16 : S1024x30720.Idx → EReal)
      = pad S1024x30720 ![0, 0] ![0, 720] ![0, 0] (m ((c : Thread nD τ).loc main_arg0) : S1024x30000.Idx → EReal)
          (sitofp (F := Ideal) .f32 (constantI S_ 32 0#32) : S_.Idx → EReal)
          pads_S1024x30000_S1024x30720_000_07200 h_S_ := by
    dsimp only [Gen.V]
    simp only [Gen.hostOps0, Gen.hostOps0_1, Gen.hostOps0_2, List.flatten_cons, List.flatten_nil, List.append_nil, List.cons_append, List.nil_append]
    after_results
    rfl
  rw [e]
  by_cases h : k.val < 30000
  · -- a column of `x`: inside the operand on both axes
    rw [dif_pos h]
    refine pad_apply_of_inside _ _ _ _ _ _ _ _ (ix2 p ⟨k.val, h⟩) (fun a => ?_)
    match a with
    | ⟨0, _⟩ => show p.val = 0 + p.val * (0 + 1); omega
    | ⟨1, _⟩ => show k.val = 0 + k.val * (0 + 1); omega
  · -- an added column: past the operand's end on axis 1, so the padding value, which is zero
    rw [dif_neg h]
    rw [pad_apply_of_not_inside _ _ _ _ _ _ _ _ (1 : Fin 2) (by
      show ¬(0 ≤ k.val ∧ (k.val - 0) % (0 + 1) = 0 ∧ (k.val - 0) / (0 + 1) < 30000)
      omega)]
    show ((((0#32 : BitVec 32).toInt : ℤ) : ℝ) : EReal) = 0
    simp

/-! ## The flat index as a word -/

/-- A word that is non-negative read signed reads the same unsigned. -/
private theorem toInt_eq_toNat_of_nonneg (a : BitVec 32) (h : 0 ≤ a.toInt) : a.toInt = (a.toNat : ℤ) := by
  have e := BitVec.toInt_eq_toNat_cond a
  have hlt := a.isLt
  split_ifs at e with hc
  · exact e
  · omega

/-- With the row in `[0, 30000)` and the column in `[0, 2048)`, the word `row · 2048 + column` does not wrap: read
    signed it is that number. -/
private theorem flat_toInt (r cl : BitVec 32) (hr0 : 0 ≤ r.toInt) (hr1 : r.toInt < 30000) (hc0 : 0 ≤ cl.toInt)
    (hc1 : cl.toInt < 2048) : (IntOp.addi (IntOp.muli r 2048#32) cl).toInt = r.toInt * 2048 + cl.toInt := by
  have er := toInt_eq_toNat_of_nonneg r hr0
  have ec := toInt_eq_toNat_of_nonneg cl hc0
  have hn : (IntOp.addi (IntOp.muli r 2048#32) cl).toNat = r.toNat * 2048 + cl.toNat := by
    simp only [IntOp.addi, IntOp.muli, BitVec.toNat_add, BitVec.toNat_mul, BitVec.toNat_ofNat]
    omega
  have hlt : (IntOp.addi (IntOp.muli r 2048#32) cl).toNat < 2 ^ 31 := by rw [hn]; omega
  have e := BitVec.toInt_eq_toNat_cond (IntOp.addi (IntOp.muli r 2048#32) cl)
  rw [if_pos (by omega)] at e
  rw [e, hn, er, ec]
  push_cast
  ring

/-- A flat index `row · 2048 + column` with the column below 2048 is `k · 2048 + j` (`j` below 2048) exactly when
    the row is `k` and the column is `j`. -/
private theorem flat_eq_iff (a b : ℤ) (k j : ℕ) (hb0 : 0 ≤ b) (hb1 : b < 2048) (hj : j < 2048) :
    a * 2048 + b = ((k * 2048 + j : ℕ) : ℤ) ↔ a = (k : ℤ) ∧ b = (j : ℤ) := by
  constructor
  · intro h
    push_cast at h
    constructor <;> omega
  · rintro ⟨rfl, rfl⟩
    push_cast
    ring

/-- The wrap of a negative flat index (add `30720 · 2048`) does nothing here: read signed, the wrapped word is
    still `row · 2048 + column`. -/
private theorem wrapped_flat_toInt (r cl : BitVec 32) (hr0 : 0 ≤ r.toInt) (hr1 : r.toInt < 30000) (hc0 : 0 ≤ cl.toInt)
    (hc1 : cl.toInt < 2048) :
    (Scalar.select (IntOp.cmpi .slt (IntOp.addi (IntOp.muli r 2048#32) cl) 0#32)
        (IntOp.addi (IntOp.addi (IntOp.muli r 2048#32) cl) 62914560#32) (IntOp.addi (IntOp.muli r 2048#32) cl)).toInt
      = r.toInt * 2048 + cl.toInt := by
  have h := flat_toInt r cl hr0 hr1 hc0 hc1
  rw [PairIndex.wrap_of_nonneg _ _ (by rw [h]; omega)]
  exact h

/-! ## The index vectors and the flat index column, as the program computes them -/

/-- The rows of the index pairs as a vector: column 0 cut out and flattened. -/
private abbrev rowsOf (ind : IVec S600000x2 32) : IVec S600000 32 :=
  shapeCast S600000 (extractStridedSlice S600000x1 ![0, 0] ind slices_S600000x2_S600000x1_0_0) shapeCasts_S600000x1_S600000

/-- The columns of the index pairs as a vector: column 1 cut out and flattened. -/
private abbrev colsOf (ind : IVec S600000x2 32) : IVec S600000 32 :=
  shapeCast S600000 (extractStridedSlice S600000x1 ![0, 1] ind slices_S600000x2_S600000x1_0_1) shapeCasts_S600000x1_S600000

/-- The flat index `row · 2048 + column`, entry by entry. -/
private abbrev flatOf (R CL : IVec S600000 32) : IVec S600000 32 :=
  addi (muli R (broadcastInDim S600000 ![] bcast_S_S600000 (constantI S_ 32 2048#32))) CL

/-- The scatter's index column: the flat index, `30720 · 2048` added where it is negative, as a column. -/
private abbrev flatCol (R CL : IVec S600000 32) : IVec S600000x1 32 :=
  broadcastInDim S600000x1 ![0] bcast_S600000_S600000x1_0
    (select (cmpi .slt (flatOf R CL) (broadcastInDim S600000 ![] bcast_S_S600000 (constantI S_ 32 0#32)))
      (addi (flatOf R CL) (broadcastInDim S600000 ![] bcast_S_S600000 (constantI S_ 32 62914560#32)))
      (flatOf R CL))

/-- The row vector at `n` is the pair array at `(n, 0)`. -/
private theorem rowsOf_apply (ind : IVec S600000x2 32) (n : Fin 600000) : rowsOf ind (ix1 n) = ind (ix2 n 0) :=
  (shapeCast_apply _ _ (ix1 n) (ix2 n 0) (by
    rw [Shape.rowMajor_val_two, Shape.rowMajor_val_one]
    show n.val * 1 + 0 = n.val
    omega)).trans
  (extractStridedSlice_apply _ _ _ (ix2 n 0) (ix2 n 0) fun a => by
    match a with
    | ⟨0, _⟩ => show n.val = 0 + n.val; omega
    | ⟨1, _⟩ => rfl)

/-- The column vector at `n` is the pair array at `(n, 1)`. -/
private theorem colsOf_apply (ind : IVec S600000x2 32) (n : Fin 600000) : colsOf ind (ix1 n) = ind (ix2 n 1) :=
  (shapeCast_apply _ _ (ix1 n) (ix2 n 0) (by
    rw [Shape.rowMajor_val_two, Shape.rowMajor_val_one]
    show n.val * 1 + 0 = n.val
    omega)).trans
  (extractStridedSlice_apply _ _ _ (ix2 n 0) (ix2 n 1) fun a => by
    match a with
    | ⟨0, _⟩ => show n.val = 0 + n.val; omega
    | ⟨1, _⟩ => rfl)

/-- The index column at `(n, 0)`: the wrapped flat index of entry `n`. -/
private theorem flatCol_apply (R CL : IVec S600000 32) (n : Fin 600000) :
    flatCol R CL (ix2 n 0)
      = Scalar.select (IntOp.cmpi .slt (IntOp.addi (IntOp.muli (R (ix1 n)) 2048#32) (CL (ix1 n))) 0#32)
          (IntOp.addi (IntOp.addi (IntOp.muli (R (ix1 n)) 2048#32) (CL (ix1 n))) 62914560#32)
          (IntOp.addi (IntOp.muli (R (ix1 n)) 2048#32) (CL (ix1 n))) := by
  unfold flatCol
  rw [PairIndex.column_apply]
  rfl

/-- The matrix the region reads at `(k, j)`, when every index pair is in range: the sum of the values whose pair
    is `(k, j)`. -/
theorem kern_apply (c : Dev nD) (hr : InRange (m ((c : Thread nD τ).loc main_arg3))) (k : Fin 30720) (j : Fin 2048) :
    (V m c main_v15 : S30720x2048.Idx → EReal) (ix2 k j)
      = dense (m ((c : Thread nD τ).loc main_arg3)) (m ((c : Thread nD τ).loc main_arg1)) k.val j.val := by
  have hkj : k.val * 2048 + j.val < 62914560 := by
    have := k.isLt
    have := j.isLt
    omega
  -- the array is the values scattered into a zero vector at the flat indices, reshaped to `[30720, 2048]`
  have e : (V m c main_v15 : S30720x2048.Idx → EReal)
      = shapeCast S30720x2048
          (Host.scatterAdd (F := Ideal) (φ := .f32) scatter_S62914560_S600000x1_S600000_n_0_0_1
            (broadcastInDim S62914560 ![] bcast_S_S62914560 (constant (F := Ideal) S_ .f32 0x00000000#32))
            (flatCol (rowsOf (m ((c : Thread nD τ).loc main_arg3))) (colsOf (m ((c : Thread nD τ).loc main_arg3))))
            (m ((c : Thread nD τ).loc main_arg1)))
          shapeCasts_S62914560_S30720x2048 := by
    dsimp only [Gen.V]
    simp only [Gen.hostOps0, Gen.hostOps0_1, Gen.hostOps0_2, List.flatten_cons, List.flatten_nil, List.append_nil, List.cons_append, List.nil_append]
    after_results_simp
    rfl
  rw [e]
  -- entry `(k, j)` of the reshaped array is entry `k · 2048 + j` of the flat one
  refine (shapeCast_apply _ _ (ix2 k j) (ix1 ⟨k.val * 2048 + j.val, hkj⟩) ?_).trans ?_
  · rw [Shape.rowMajor_val_one, Shape.rowMajor_val_two]
    rfl
  -- which is zero plus the values whose flat index is `k · 2048 + j`
  refine (GatherScatter.vecScatterAdd_apply (φ := .f32) scatter_S62914560_S600000x1_S600000_n_0_0_1_wf _ _ _
    ⟨k.val * 2048 + j.val, hkj⟩).trans ?_
  rw [show (broadcastInDim S62914560 ![] bcast_S_S62914560 (constant (F := Ideal) S_ .f32 0x00000000#32)
      : S62914560.Idx → EReal) (ix1 ⟨k.val * 2048 + j.val, hkj⟩) = Ideal.ofBits .f32 0x00000000#32 from rfl,
    Ideal.ofBits_zero_f32, zero_add]
  unfold dense
  -- and a pair in range has flat index `k · 2048 + j` exactly when it is `(k, j)`
  refine Finset.sum_congr (Finset.filter_congr fun n _ => ?_) fun n _ => rfl
  obtain ⟨⟨hr0, hr1⟩, hc0, hc1⟩ := hr n
  rw [flatCol_apply, rowsOf_apply, colsOf_apply, wrapped_flat_toInt _ _ hr0 hr1 hc0 hc1]
  exact flat_eq_iff _ _ k.val j.val hc0 hc1 j.isLt

/-- The bias row at `(0, j)` is the bias at `j`. -/
theorem bias_apply (c : Dev nD) (j : Fin 2048) :
    (V m c main_v17 : S1x2048.Idx → EReal) (ix2 0 j) = (m ((c : Thread nD τ).loc main_arg2) : S2048.Idx → EReal) (ix1 j) := by
  -- the row is the bias reshaped from `[2048]` to `[1, 2048]`: the same row-major position
  dsimp only [Gen.V]
  simp only [Gen.hostOps0, Gen.hostOps0_1, Gen.hostOps0_2, List.flatten_cons, List.flatten_nil, List.append_nil, List.cons_append, List.nil_append]
  after_results
  exact shapeCast_a_1a_apply (a := 2048) (m ((c : Thread nD τ).loc main_arg2) : S2048.Idx → EReal) shapeCasts_S2048_S1x2048 0 j

end Cert.KernelIdeal.HostValue

end
-- ==== Proof.Bridge.lean ====
/-
  THE KERNEL'S RESULT IS `G`, when every index pair is in range.

  The kernel sums a row of the padded `x` against a column of its `[30720, 2048]` matrix in 30 runs of 1024 terms. The
  720 added columns of `x` are zero, so their terms vanish whatever the matrix holds there (`0 · y = 0` on the extended
  reals), and on the first 30000 rows the kernel's matrix is the one the index pairs and values describe: the sum is
  `G`'s sum over the 30000 columns of `x`. Only commutativity and associativity of the sum are used: no finiteness.
-/
import proofs.«405967_j21552145891656_3_alg».proof.Proof.KernelFold
import proofs.«405967_j21552145891656_3_alg».proof.Proof.KernelHost
import proofs.«405967_j21552145891656_3_alg».proof.Proof.Spec
import Mathlib.Algebra.BigOperators.Fin
import Mathlib.Algebra.BigOperators.Intervals

set_option maxRecDepth 16384

noncomputable section

open scoped BigOperators

namespace Cert.KernelIdeal.BodyValue

open Cert.KernelIdeal Cert.KernelIdeal.Gen Idealize.ShloMosaic Idealize.ShloMosaic.TcCoe Idealize.SL.Sem
open Idealize.ShloMosaic.ValueIdx Cert.SparseDense

/-- A sum in 30 runs of 1024 terms of a function of the position is the sum over the 30720 positions. -/
theorem sum_steps (f : ℕ → EReal) :
    ∑ s : Fin 30, ∑ kk : Fin 1024, f (stepIdx s kk).val = ∑ k ∈ Finset.range 30720, f k := by
  rw [← Fin.sum_univ_eq_sum_range f 30720, ← Fintype.sum_prod_type']
  rw [← Equiv.sum_comp (finProdFinEquiv (m := 30) (n := 1024)) (fun k : Fin (30 * 1024) => f k.val)]
  refine Finset.sum_congr rfl fun x _ => ?_
  refine congrArg f ?_
  show x.1.val * 1024 + x.2.val = x.2.val + 1024 * x.1.val
  omega

/-- A sum over 30720 positions whose terms vanish from 30000 on is the sum over the first 30000. -/
theorem sum_padded (f : ℕ → EReal) (hz : ∀ k, 30000 ≤ k → f k = 0) :
    ∑ k ∈ Finset.range 30720, f k = ∑ k : Fin 30000, f k.val := by
  rw [Fin.sum_univ_eq_sum_range f 30000, ← Finset.sum_range_add_sum_Ico f (by decide : 30000 ≤ 30720)]
  rw [Finset.sum_eq_zero (fun k hk => hz k (Finset.mem_Ico.mp hk).1), add_zero]

variable (m : (ℓ : Loc nD τ sig) → Buf (Elt Ideal) ℓ)

/-- The four arguments as launched, at their literal types. -/
abbrev xArg (c : Dev nD) : S1024x30000.Idx → EReal := m ((c : Thread nD τ).loc main_arg0)
abbrev kvArg (c : Dev nD) : S600000.Idx → EReal := m ((c : Thread nD τ).loc main_arg1)
abbrev biasArg (c : Dev nD) : S2048.Idx → EReal := m ((c : Thread nD τ).loc main_arg2)
abbrev indArg (c : Dev nD) : IVec S600000x2 32 := m ((c : Thread nD τ).loc main_arg3)

/-- The kernel's result function of the arrays its region finds is `G` of the four arguments. -/
theorem kernelResult_eq (c : Dev nD) (hr : InRange (m ((c : Thread nD τ).loc main_arg3))) :
    kernelResult (xarr m c) (karr m c) (barr m c)
      = G (m ((c : Thread nD τ).loc main_arg0)) (m ((c : Thread nD τ).loc main_arg1))
          (m ((c : Thread nD τ).loc main_arg2)) (m ((c : Thread nD τ).loc main_arg3)) := by
  funext i
  obtain ⟨p, n, rfl⟩ : ∃ (p : Fin 1024) (n : Fin 2048), i = ix2 p n := ⟨i 0, i 1, eq_ix2 i⟩
  show kernelResult (xarr m c) (karr m c) (barr m c) (ix2 p n) = G (xArg m c) (kvArg m c) (biasArg m c) (indArg m c) (ix2 p n)
  unfold kernelResult G
  show Ideal.tanh (((0 : EReal) + stepSum (xarr m c) (karr m c) p n) + barr m c (ix2 0 n))
      = Ideal.tanh ((∑ k : Fin 30000, xArg m c (ix2 p k) * dense (indArg m c) (kvArg m c) k.val n.val) + biasArg m c (ix1 n))
  have hb : barr m c (ix2 0 n) = biasArg m c (ix1 n) := HostValue.bias_apply m c n
  rw [zero_add, hb]
  refine congrArg (fun z => Ideal.tanh (z + biasArg m c (ix1 n))) ?_
  -- each term, as a function of the position among the padded columns
  have hterm : ∀ (s : Fin 30) (kk : Fin 1024),
      xarr m c (ix2 p (stepIdx s kk)) * karr m c (ix2 (stepIdx s kk) n)
        = (fun k : ℕ => (if h : k < 30000 then xArg m c (ix2 p ⟨k, h⟩) else 0 : EReal)
            * dense (indArg m c) (kvArg m c) k n.val) (stepIdx s kk).val := by
    intro s kk
    have hx : xarr m c (ix2 p (stepIdx s kk))
        = (if h : (stepIdx s kk).val < 30000 then xArg m c (ix2 p ⟨(stepIdx s kk).val, h⟩) else 0 : EReal) :=
      HostValue.xpad_apply m c p (stepIdx s kk)
    have hk : karr m c (ix2 (stepIdx s kk) n) = dense (indArg m c) (kvArg m c) (stepIdx s kk).val n.val :=
      HostValue.kern_apply m c hr (stepIdx s kk) n
    rw [hx, hk]
  unfold stepSum
  rw [Finset.sum_congr rfl (fun s _ => Finset.sum_congr rfl (fun kk _ => hterm s kk))]
  refine (sum_steps (fun k : ℕ => (if h : k < 30000 then xArg m c (ix2 p ⟨k, h⟩) else 0 : EReal)
      * dense (indArg m c) (kvArg m c) k n.val)).trans ?_
  refine (sum_padded _ ?_).trans ?_
  · intro k hk
    show (if h : k < 30000 then xArg m c (ix2 p ⟨k, h⟩) else 0 : EReal) * _ = 0
    rw [dif_neg (by omega), zero_mul]
  · refine Finset.sum_congr rfl fun k _ => ?_
    show (if h : k.val < 30000 then xArg m c (ix2 p ⟨k.val, h⟩) else 0 : EReal) * _ = _
    rw [dif_pos k.isLt]

end Cert.KernelIdeal.BodyValue

end
-- ==== Proof.RefValue.lean ====
/-
  THE REFERENCE'S RESULT IS `G`, when every index pair is in range.

  The reference wraps negative row and column indices (none is negative in range), pairs them up, adds every value at
  its pair into a zero `[30000, 2048]` matrix, multiplies `x` by it, adds the bias along rows and takes `tanh`.
-/
import proofs.«405967_j21552145891656_3_alg».proof.Proof.Gen.ReferenceIdeal.Read
import proofs.«405967_j21552145891656_3_alg».proof.Proof.Spec
import proofs.«405967_j21552145891656_3_alg».proof.Proof.LibGatherScatter
import proofs.«405967_j21552145891656_3_alg».proof.Proof.LibPairIndex
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.SparseDense

/-! ## The raw index columns

Column `c` of the index array is cut out as a `[600000, 1]` slice and flattened; entry `n` of the flattened column is
`x3[n, c]`. -/

/-- Entry `n` of the flattened first column is `x3[n, 0]`. -/
private theorem rows_apply (x3 : (⟨S600000x2, .i32⟩ : BufTy).Contents (Elt Ideal)) (n : Fin 600000) :
    Read.val_main_v2 (F := Ideal) x3 (ix1 n) = x3 (ix2 n 0) := by
  rw [Read.val_main_v2_apply, Read.val_main_v1_apply]
  congr 1
  funext a
  refine Fin.ext ?_
  match a with
  | ⟨0, _⟩ => exact Nat.div_one _
  | ⟨1, _⟩ => rfl

/-- Entry `n` of the flattened second column is `x3[n, 1]`. -/
private theorem cols_apply (x3 : (⟨S600000x2, .i32⟩ : BufTy).Contents (Elt Ideal)) (n : Fin 600000) :
    Read.val_main_v4 (F := Ideal) x3 (ix1 n) = x3 (ix2 n 1) := by
  rw [Read.val_main_v4_apply, Read.val_main_v3_apply]
  congr 1
  funext a
  refine Fin.ext ?_
  match a with
  | ⟨0, _⟩ => exact Nat.div_one _
  | ⟨1, _⟩ => rfl

/-! ## The wrapped indices

A negative index `i` is replaced by `i + 30000` (rows) or `i + 2048` (columns). An index in range is not negative, so
the wrapped index is the index itself. -/

/-- The wrapped row index of entry `n` is `x3[n, 0]`. -/
private theorem wrapped_rows_apply (x3 : (⟨S600000x2, .i32⟩ : BufTy).Contents (Elt Ideal)) (hr : InRange x3)
    (n : Fin 600000) : Read.val_main_v9 (F := Ideal) x3 (ix1 n) = x3 (ix2 n 0) := by
  rw [Read.val_main_v9_apply, Read.val_main_v6_apply, Read.val_main_v8_apply, Read.val_main_v5_apply,
    Read.val_main_c_apply, rows_apply]
  exact PairIndex.wrap_of_nonneg _ _ (hr n).1.1

/-- The wrapped column index of entry `n` is `x3[n, 1]`. -/
private theorem wrapped_cols_apply (x3 : (⟨S600000x2, .i32⟩ : BufTy).Contents (Elt Ideal)) (hr : InRange x3)
    (n : Fin 600000) : Read.val_main_v14 (F := Ideal) x3 (ix1 n) = x3 (ix2 n 1) := by
  rw [Read.val_main_v14_apply, Read.val_main_v11_apply, Read.val_main_v13_apply, Read.val_main_v10_apply,
    Read.val_main_c_1_apply, cols_apply]
  exact PairIndex.wrap_of_nonneg _ _ (hr n).2.1

/-! ## The pairs

The two wrapped columns, each broadcast to `[600000, 1]`, are laid side by side. -/

/-- The row component of pair `n` is `x3[n, 0]`. -/
private theorem pairs_row (x3 : (⟨S600000x2, .i32⟩ : BufTy).Contents (Elt Ideal)) (hr : InRange x3)
    (n : Fin 600000) : Read.val_main_v17 (F := Ideal) x3 (ix2 n 0) = x3 (ix2 n 0) := by
  unfold Read.val_main_v17
  rw [PairIndex.pairs_col0, Read.val_main_v15_apply]
  have e : Read.idx_main_v15 (ix2 n (0 : Fin 1)) = ix1 n :=
    funext fun a => Fin.ext (by match a with | ⟨0, _⟩ => rfl)
  rw [e, wrapped_rows_apply x3 hr n]

/-- The column component of pair `n` is `x3[n, 1]`. -/
private theorem pairs_col (x3 : (⟨S600000x2, .i32⟩ : BufTy).Contents (Elt Ideal)) (hr : InRange x3)
    (n : Fin 600000) : Read.val_main_v17 (F := Ideal) x3 (ix2 n 1) = x3 (ix2 n 1) := by
  unfold Read.val_main_v17
  rw [PairIndex.pairs_col1, Read.val_main_v16_apply]
  have e : Read.idx_main_v16 (ix2 n (0 : Fin 1)) = ix1 n :=
    funext fun a => Fin.ext (by match a with | ⟨0, _⟩ => rfl)
  rw [e, wrapped_cols_apply x3 hr n]

/-! ## The scattered matrix -/

/-- Adding every value at its pair into the zero matrix gives, at `(k, q)`, the sum of the values whose pair is
    `(k, q)`. -/
private theorem scatter_eq (x1 : (⟨S600000, .f32⟩ : BufTy).Contents (Elt Ideal))
    (x3 : (⟨S600000x2, .i32⟩ : BufTy).Contents (Elt Ideal)) (hr : InRange x3) (k : Fin 30000) (q : Fin 2048) :
    Read.val_main_v18 (F := Ideal) x1 x3 (ix2 k q) = dense x3 x1 k.val q.val := by
  unfold Read.val_main_v18
  show Host.scatterAdd (F := Ideal) (φ := .f32)
      (GatherScatter.pairScatterDims 30000 2048 600000 scatter_S30000x2048_S600000x2_S600000_n_01_01_1_wf)
      (Read.val_main_v0 (F := Ideal)) (Read.val_main_v17 (F := Ideal) x3) x1 (ix2 k q) = _
  rw [GatherScatter.pairScatterAdd_apply, Read.val_main_v0_apply, Read.val_main_cst_apply, Ideal.ofBits_def,
    Ideal.ofBits_zero_f32, zero_add]
  unfold dense
  refine Finset.sum_congr (Finset.filter_congr fun n _ => ?_) fun _ _ => rfl
  rw [pairs_row x3 hr n, pairs_col x3 hr n]

/-! ## The result -/

/-- The reference's last stage, as a function of the four arguments, is `G` of them. -/
theorem ref_eq (x0 : (⟨S1024x30000, .f32⟩ : BufTy).Contents (Elt Ideal)) (x1 : (⟨S600000, .f32⟩ : BufTy).Contents (Elt Ideal))
    (x2 : (⟨S2048, .f32⟩ : BufTy).Contents (Elt Ideal)) (x3 : (⟨S600000x2, .i32⟩ : BufTy).Contents (Elt Ideal))
    (hr : InRange x3) :
    Cert.ReferenceIdeal.Read.val_main_v23 (F := Ideal) x0 x1 x2 x3 = G x0 x1 x2 x3 := by
  funext i
  obtain ⟨p, q, rfl⟩ : ∃ (p : Fin 1024) (q : Fin 2048), i = ix2 p q := ⟨i 0, i 1, eq_ix2 i⟩
  rw [Read.val_main_v23_apply, Read.val_main_v22_apply, Read.val_main_v19_apply, Read.val_main_v21_apply,
    Read.val_main_v20_apply]
  have eb : Read.idx_main_v20 (Read.idx_main_v21 (ix2 p q)) = ix1 q :=
    funext fun a => Fin.ext (by match a with | ⟨0, _⟩ => rfl)
  have el : ∀ k : Fin 30000, Read.lidx_main_v19 (ix2 p q) k = ix2 p k := fun k =>
    funext fun a => Fin.ext (by match a with | ⟨0, _⟩ => rfl | ⟨1, _⟩ => rfl)
  have er : ∀ k : Fin 30000, Read.ridx_main_v19 (ix2 p q) k = ix2 k q := fun k =>
    funext fun a => Fin.ext (by match a with | ⟨0, _⟩ => rfl | ⟨1, _⟩ => rfl)
  have hs : (∑ k : Fin 30000, x0 (Read.lidx_main_v19 (ix2 p q) k)
        * Read.val_main_v18 (F := Ideal) x1 x3 (Read.ridx_main_v19 (ix2 p q) k))
      = ∑ k : Fin 30000, x0 (ix2 p k) * dense x3 x1 k.val q.val :=
    Finset.sum_congr rfl fun k _ => by rw [el k, er k, scatter_eq x1 x3 hr k q]
  rw [hs, eb]
  simp only [Ideal.hostUnary_tanh_def, Ideal.addf_def]
  rfl

end Cert.ReferenceIdeal.RefValue

end
-- ==== Proof.PreRange.lean ====
/-
  THE PRECONDITION GIVES THE INDEX RANGES.

  The precondition is a conjunction of seven `all`s: three say the float inputs are finite, four say that column 0 of the
  index pairs is `≥ 0` and `< 30000` and column 1 is `≥ 0` and `< 2048`, compared signed. Each `all` that is one gives
  its comparison at every index.
-/
import proofs.«405967_j21552145891656_3_alg».proof.Pre_finite_inputs
import proofs.«405967_j21552145891656_3_alg».proof.Proof.Gen.Pre_finite_inputs
import proofs.«405967_j21552145891656_3_alg».proof.Proof.Spec
import Idealize.ShloMosaic.Lib.ReduceAll
import Idealize.ShloMosaic.Lib.ValueIdx
import Idealize.ShloMosaic.Lib.Pipeline.Value
import Idealize.ShloMosaic.Lib.StableHlo.Predicate

noncomputable section

namespace Cert.SparseDense

open Idealize.ShloMosaic Idealize.ShloMosaic.ValueIdx Cert.Pre_finite_inputs

/-- The scalar shape has one index. -/
private instance subsingleton_scalar_idx : Subsingleton S_.Idx := ⟨fun a b => funext fun d => d.elim0⟩

/-- Column 0 of the pairs, cut out as a `[600000, 1]` block and reshaped to a vector, read at `n`, is the first word of pair `n`. -/
private theorem col0_apply (a3 : IVec S600000x2 32) (hs : S600000x2.Slices ![0, 0] S600000x1)
    (hc : S600000x1.ShapeCasts S600000) (n : Fin 600000) :
    shapeCast S600000 (extractStridedSlice S600000x1 ![0, 0] a3 hs) hc (ix1 n) = a3 (ix2 n 0) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ a3 hs _ _ fun a => ?_
    match a with
    | ⟨0, _⟩ => show n.val = 0 + n.val; omega
    | ⟨1, _⟩ => show 0 = 0 + 0; rfl

/-- Column 1 likewise: the second word of pair `n`. -/
private theorem col1_apply (a3 : IVec S600000x2 32) (hs : S600000x2.Slices ![0, 1] S600000x1)
    (hc : S600000x1.ShapeCasts S600000) (n : Fin 600000) :
    shapeCast S600000 (extractStridedSlice S600000x1 ![0, 1] a3 hs) hc (ix1 n) = a3 (ix2 n 1) := by
  refine (shapeCast_apply _ hc (ix1 n) (ix2 n (0 : Fin 1)) ?_).trans ?_
  · rw [Shape.rowMajor_val_two, Shape.rowMajor_val_one]
    show n.val * 1 + 0 = n.val
    omega
  · refine extractStridedSlice_apply _ a3 hs _ _ fun a => ?_
    match a with
    | ⟨0, _⟩ => show n.val = 0 + n.val; omega
    | ⟨1, _⟩ => show 1 = 1 + 0; rfl

/-- A vector comparison against a broadcast scalar constant, read at an index, compares the word there with the constant. -/
private theorem cmpi_bcast_apply {s : Shape} (p : CmpIPredicate) (x : IVec s 32) (hb : S_.BroadcastsInDim s ![])
    (c : BitVec 32) (i : s.Idx) :
    cmpi p x (broadcastInDim s ![] hb (constantI S_ 32 c)) i = IntOp.cmpi p (x i) c := rfl

/-- If the precondition's function is one (at its only index), every index pair is in range. -/
theorem inRange_of_pre {F : FTy → Type} [FloatOps F] (a0 : FVec F S1024x30000 .f32) (a1 : FVec F S600000 .f32)
    (a2 : FVec F S2048 .f32) (a3 : IVec S600000x2 32)
    (h : Cert.Pre_finite_inputs.fn (F := F) a0 a1 a2 a3 = fun _ => 1#1) : InRange a3 := by
  have e := congrFun h ix0
  dsimp only [fn, fn_part1, fn_part2] at e
  -- the seven conjuncts, the last four kept
  obtain ⟨e, c1⟩ := IntOp.andi_eq_one.1 e
  obtain ⟨e, c0⟩ := IntOp.andi_eq_one.1 e
  obtain ⟨e, r1⟩ := IntOp.andi_eq_one.1 e
  obtain ⟨-, r0⟩ := IntOp.andi_eq_one.1 e
  intro n
  -- each `all` at pair `n`
  have R0 := Host.reduce_andi_all _ _ _ _ _ r0 (ix1 n)
  have R1 := Host.reduce_andi_all _ _ _ _ _ r1 (ix1 n)
  have C0 := Host.reduce_andi_all _ _ _ _ _ c0 (ix1 n)
  have C1 := Host.reduce_andi_all _ _ _ _ _ c1 (ix1 n)
  rw [cmpi_bcast_apply, col0_apply, IntOp.cmpi_sge] at R0
  rw [cmpi_bcast_apply, col0_apply, IntOp.cmpi_slt] at R1
  rw [cmpi_bcast_apply, col1_apply, IntOp.cmpi_sge] at C0
  rw [cmpi_bcast_apply, col1_apply, IntOp.cmpi_slt] at C1
  have z : (0#32 : BitVec 32).toInt = 0 := by decide
  have r : (30000#32 : BitVec 32).toInt = 30000 := by decide
  have c : (2048#32 : BitVec 32).toInt = 2048 := by decide
  rw [z] at R0 C0
  rw [r] at R1
  rw [c] at C1
  exact ⟨⟨R0, R1⟩, ⟨C0, C1⟩⟩

end Cert.SparseDense

end
-- ==== Proof.lean ====
/-
  A sparse dense layer, `tanh (x · K + bias)`, where the `[30000, 2048]` matrix `K` is given by 600000 values and an index
  pair for each: `K[k, j]` is the sum of the values whose pair is `(k, j)`.

  The reference adds every value at its pair into a zero matrix and multiplies. The kernel adds every value into a zero
  VECTOR at the flat position `row · 2048 + column`, reads that vector as a `[30720, 2048]` matrix (720 further rows, which
  stay zero), pads `x` with 720 zero columns, and accumulates the product over 30 blocks of 1024 columns, two column tiles
  of the result apart; `tanh` of the sum plus the bias is stored at the last block. Over the extended reals both results
  are one function `G` of the arguments (Proof/Spec.lean), entry by entry:

  * with every row index in `[0, 30000)` and every column index in `[0, 2048)` — the precondition; outside it the flat
    position of one pair can be the position of another, and the reference drops what the kernel keeps — a pair's flat
    position is `k · 2048 + j` exactly when the pair is `(k, j)`, so the kernel's matrix agrees with `K` on its first 30000
    rows (Proof/KernelHost.lean), and the reference's matrix is `K` (Proof/RefValue.lean);
  * the kernel's accumulator after its 30 steps is the sum of the 30 block products (Proof/KernelBody.lean,
    Proof/KernelFold.lean), which is the sum over all 30720 padded columns;
  * the terms of the 720 added columns are `0 · y = 0`, so that sum is the reference's sum over 30000 columns
    (Proof/Bridge.lean). Sums are only regrouped: nothing here needs the inputs finite.

  The three frames are the generated ones (the reference's is its generated run with the result dropped); the
  idealized kernel is the kernel's own text read over the extended reals, so there is nothing to preserve.
-/
import proofs.«405967_j21552145891656_3_alg».proof.Defs
import proofs.«405967_j21552145891656_3_alg».proof.Proof.Gen.Kernel
import proofs.«405967_j21552145891656_3_alg».proof.Proof.Gen.Kernel.Skeleton
import proofs.«405967_j21552145891656_3_alg».proof.Proof.Gen.Kernel.Launch
import proofs.«405967_j21552145891656_3_alg».proof.Proof.Gen.Kernel.Points
import proofs.«405967_j21552145891656_3_alg».proof.Proof.Gen.Kernel.Frame
import proofs.«405967_j21552145891656_3_alg».proof.Proof.Gen.KernelIdeal
import proofs.«405967_j21552145891656_3_alg».proof.Proof.Gen.KernelIdeal.Skeleton
import proofs.«405967_j21552145891656_3_alg».proof.Proof.Gen.KernelIdeal.Launch
import proofs.«405967_j21552145891656_3_alg».proof.Proof.Gen.KernelIdeal.Points
import proofs.«405967_j21552145891656_3_alg».proof.Proof.Gen.KernelIdeal.Frame
import proofs.«405967_j21552145891656_3_alg».proof.Proof.Gen.ReferenceIdeal
import proofs.«405967_j21552145891656_3_alg».proof.Proof.Gen.Pre_finite_inputs
import proofs.«405967_j21552145891656_3_alg».proof.Proof.Gen.KernelIdeal.Value
import proofs.«405967_j21552145891656_3_alg».proof.Proof.Gen.ReferenceIdeal.Run
import proofs.«405967_j21552145891656_3_alg».proof.Proof.Gen.ReferenceIdeal.Read
import proofs.«405967_j21552145891656_3_alg».proof.Proof.Bridge
import proofs.«405967_j21552145891656_3_alg».proof.Proof.RefValue
import proofs.«405967_j21552145891656_3_alg».proof.Proof.PreRange
import Idealize.ShloMosaic.Adequacy
import Idealize.ShloMosaic.Init

noncomputable section

namespace Cert.Proof

open Idealize.ShloMosaic Idealize.SL.Sem Cert.SparseDense

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the arguments, with every index pair in range, both programs end with `G` of the
    arguments in their result. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg3)) :=
    fun c => inRange_of_pre _ _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.BodyValue.final m c).trans
        (Cert.KernelIdeal.BodyValue.kernelResult_eq m c (hr c))), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq, (hagree c).1, (hagree c).2.1, (hagree c).2.2.1,
      (hagree c).2.2.2]
    exact Cert.ReferenceIdeal.RefValue.ref_eq _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
